-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S2000x7 : Shape := ⟨2, ![2000, 7]⟩
abbrev S3300000x7 : Shape := ⟨2, ![3300000, 7]⟩
abbrev S1x7 : Shape := ⟨2, ![1, 7]⟩
abbrev S2000 : Shape := ⟨1, ![2000]⟩
abbrev S2000x1 : Shape := ⟨2, ![2000, 1]⟩

abbrev nBuf : Space → Nat
  | .hbm => 85
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x7, .f32⟩
  | .hbm, ⟨67, _⟩ => ⟨S3300000x1, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x7, .f32⟩
  | .hbm, ⟨77, _⟩ => ⟨S3300000x7, .f32⟩
  | .hbm, ⟨78, _⟩ => ⟨S3300000x7, .f32⟩
  | .hbm, ⟨79, _⟩ => ⟨S_, .f32⟩
  | .hbm, ⟨80, _⟩ => ⟨S100000x7, .f32⟩
  | .hbm, ⟨81, _⟩ => ⟨S3300000x1, .i32⟩
  | .hbm, ⟨82, _⟩ => ⟨S100000x7, .f32⟩
  | .hbm, ⟨83, _⟩ => ⟨S1x7, .f32⟩
  | .hbm, ⟨84, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x7, .f32⟩
  | .local _ .vmem, ⟨9, _⟩ => ⟨S2000x7, .f32⟩
  | .local _ .vmem, ⟨10, _⟩ => ⟨S2000x7, .f32⟩
  | .local _ .vmem, ⟨11, _⟩ => ⟨S2000x7, .f32⟩
  | .local _ .vmem, ⟨12, _⟩ => ⟨S2000x7, .f32⟩
  | .local _ .vmem, ⟨13, _⟩ => ⟨S1x7, .f32⟩
  | .local _ .vmem, ⟨14, _⟩ => ⟨S2000x7, .f32⟩
  | .local _ .vmem, ⟨15, _⟩ => ⟨S2000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S2000x7_S2000x7 : S2000x7.ShapeCasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reduces_S2000x7_S2000 : S2000x7.Reduces [1] S2000
  shapeCasts_S2000_S2000x1 : S2000.ShapeCasts S2000x1
  broadcasts_S2000x1_S2000x7 : S2000x1.Broadcasts S2000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x7.size a ≤ S100000x7.size a
  hwx1_3 : ∀ i : grid1.Coords, EltTy.bits .f32 = 32 ∨ (Rect.block (s := S100000x7) S2000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x7.size a ≤ S100000x7.size a
  hwx2_0 : ∀ i : grid2.Coords, EltTy.bits .f32 = 32 ∨ (Rect.block (s := S100000x7) S2000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S100000x7.size a
  hwx2_2 : ∀ i : grid2.Coords, EltTy.bits .f32 = 32 ∨ (Rect.block (s := S100000x7) S2000x7.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x7, .f32⟩
  | .hbm, ⟨72, _⟩ => ⟨S3300000x1, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x7, .f32⟩
  | .hbm, ⟨82, _⟩ => ⟨S3300000x7, .f32⟩
  | .hbm, ⟨83, _⟩ => ⟨S3300000x7, .f32⟩
  | .hbm, ⟨84, _⟩ => ⟨S_, .f32⟩
  | .hbm, ⟨85, _⟩ => ⟨S100000x7, .f32⟩
  | .hbm, ⟨86, _⟩ => ⟨S3300000x1, .i32⟩
  | .hbm, ⟨87, _⟩ => ⟨S100000x7, .f32⟩
  | .hbm, ⟨88, _⟩ => ⟨S1x7, .f32⟩
  | .hbm, ⟨89, _⟩ => ⟨S100000x7, .f32⟩
  | .hbm, ⟨90, _⟩ => ⟨S100000x7, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x7, .f32⟩
  | .hbm, ⟨98, _⟩ => ⟨S100000x7, .f32⟩
  | .hbm, ⟨99, _⟩ => ⟨S100000x7, .f32⟩
  | .hbm, ⟨100, _⟩ => ⟨S_, .f32⟩
  | .hbm, ⟨101, _⟩ => ⟨S100000, .f32⟩
  | .hbm, ⟨102, _⟩ => ⟨S100000x1, .f32⟩
  | .hbm, ⟨103, _⟩ => ⟨S100000x1, .f32⟩
  | .hbm, ⟨104, _⟩ => ⟨S100000x7, .f32⟩
  | .hbm, ⟨105, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.Layers.lean ====
/-
  The reference's three dense stages as functions of ARBITRARY operands, and what each holds at an index.

  The reference computes, around its gathers and scatter-sums, three dense maps: the feature transform `x · W₁`
  (its stage `val_main_v31`), the hidden transform `relu (A + b₁) · W₂` of an aggregated array `A`, and the row-wise
  log-softmax of `A + b₂`. The generated stage functions state the last two only at the reference's own aggregated
  arrays; here they are restated over any `A` (`hidden`, `outputs`), shown to be the generated stages at the
  reference's arrays by unfolding, and read at an index `(p, q)`:
    features  (p, q) = ∑ k < 512, x (p, k) · W₁ (k, q)
    hidden    (p, q) = ∑ k < 16, max (A (p, k) + b₁ k) 0 · W₂ (k, q)
    outputs   (p, q) = (ℓ q − M) − log ∑ j < 7, exp (ℓ j − M),   ℓ j = A (p, j) + b₂ j,   M = max_j ℓ j
  on the extended reals (a maximum over the seven lanes started from −∞; `max ⊥ M = M` absorbs the reference's extra
  comparison with −∞).
-/
import proofs.«101365_j87875030876683_1_alg».proof.Proof.RefRead
import Idealize.ShloMosaic.Lib.ValueIdx
import Idealize.ShloMosaic.Lib.ValueLayout
import Idealize.ShloMosaic.PureOps.Ideal.Laws

noncomputable section

namespace Cert.Layers

open Cert.ReferenceIdeal Cert.ReferenceIdeal.Gen Cert.ReferenceIdeal.ReadP Idealize.ShloMosaic Idealize.ShloMosaic.ValueIdx

/-! ## The aggregation steps, over any array to be gathered from -/

section Aggregation

variable {F : FTy → Type} [FloatOps F]

/-- One message-passing step on 16-wide rows: the rows of `H` gathered at the edges' sources (self-loops appended, negative
    indices wrapped), each scaled by its edge's normalisation, and summed into the rows of the edges' targets. Edge
    sources, targets and normalisation are the reference's own stages of the edge array `x1`. -/
def aggregate16 (H : (⟨S100000x16, .f32⟩ : BufTy).Contents (Elt F)) (x1 : (⟨S2x3200000, .i32⟩ : BufTy).Contents (Elt F)) :
    (⟨S100000x16, .f32⟩ : BufTy).Contents (Elt F) :=
  Host.scatterAdd scatter_S100000x16_S3300000x1_S3300000x16_1_0_0_1 (val_main_v42 (F := F)) (val_main_v43 (F := F) x1)
    (mulf (val_main_v40 (F := F) x1) (Host.gather gather_S100000x16_S3300000x1_S3300000x16_1_0_n_n_0_1_116 H (val_main_v38 (F := F) x1)))

/-- The reference's first aggregated array is that step applied to its first matrix product. -/
theorem val_main_v44_eq (x0 : (⟨S100000x512, .f32⟩ : BufTy).Contents (Elt F)) (x1 : (⟨S2x3200000, .i32⟩ : BufTy).Contents (Elt F))
    (x2 : (⟨S512x16, .f32⟩ : BufTy).Contents (Elt F)) :
    val_main_v44 (F := F) x0 x1 x2 = aggregate16 (val_main_v31 (F := F) x0 x2) x1 := rfl

/-- The same step on 7-wide rows. -/
def aggregate7 (H : (⟨S100000x7, .f32⟩ : BufTy).Contents (Elt F)) (x1 : (⟨S2x3200000, .i32⟩ : BufTy).Contents (Elt F)) :
    (⟨S100000x7, .f32⟩ : BufTy).Contents (Elt F) :=
  Host.scatterAdd scatter_S100000x7_S3300000x1_S3300000x7_1_0_0_1 (val_main_v60 (F := F)) (val_main_v61 (F := F) x1)
    (mulf (val_main_v58 (F := F) x1) (Host.gather gather_S100000x7_S3300000x1_S3300000x7_1_0_n_n_0_1_17 H (val_main_v56 (F := F) x1)))

/-- The reference's second aggregated array is that step applied to its second matrix product. -/
theorem val_main_v62_eq (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F)) (x4 : (⟨S16x7, .f32⟩ : BufTy).Contents (Elt F)) :
    val_main_v62 (F := F) x0 x1 x2 x3 x4 = aggregate7 (val_main_v49 (F := F) x0 x1 x2 x3 x4) x1 := rfl

end Aggregation

/-! ## The feature transform -/

/-- The reference's first matrix product at `(p, q)`: row `p` of `x` against column `q` of `W₁`. -/
theorem features_apply (X : FVec Ideal S100000x512 .f32) (W : FVec Ideal S512x16 .f32) (p : Fin 100000) (q : Fin 16) :
    val_main_v31 (F := Ideal) X W (ix2 p q) = ∑ k : Fin 512, X (ix2 p k) * W (ix2 k q) := by
  rw [val_main_v31_apply]
  refine Finset.sum_congr rfl fun k _ => ?_
  have el : lidx_main_v31 (ix2 p q) k = ix2 p k := funext fun a => Fin.ext (by
    match a with
    | ⟨0, _⟩ => rfl
    | ⟨1, _⟩ => rfl)
  have er : ridx_main_v31 (ix2 p q) k = ix2 k q := funext fun a => Fin.ext (by
    match a with
    | ⟨0, _⟩ => rfl
    | ⟨1, _⟩ => rfl)
  rw [el, er]

/-! ## The hidden transform -/

/-- `relu (A + b) · W`: the bias row added to every row of `A`, negative entries cut to zero, then the matrix product. -/
def hidden (A : FVec Ideal S100000x16 .f32) (b : FVec Ideal S16 .f32) (W : FVec Ideal S16x7 .f32) : FVec Ideal S100000x7 .f32 :=
  Host.dotGeneral dot_S100000x16_S16x7_S100000x7_1_0_0_1_n_n none
    (maximumf (addf A (broadcastInDim S100000x16 ![0, 1] bcast_S1x16_S100000x16_0_1 (broadcastInDim S1x16 ![1] bcast_S16_S1x16_1 b)))
      (broadcastInDim S100000x16 ![] bcast_S_S100000x16 (constant (F := Ideal) S_ .f32 0x00000000#32))) W

/-- The reference's second matrix product is `hidden` of its first aggregated array. -/
theorem val_main_v49_eq (x0 : FVec Ideal S100000x512 .f32) (x1 : IVec S2x3200000 32) (x2 : FVec Ideal S512x16 .f32)
    (x3 : FVec Ideal S16 .f32) (x4 : FVec Ideal S16x7 .f32) :
    val_main_v49 (F := Ideal) x0 x1 x2 x3 x4 = hidden (val_main_v44 (F := Ideal) x0 x1 x2) x3 x4 := rfl

/-- The reference's second matrix product over any left operand, at `(p, q)`: row `p` against column `q`. -/
theorem product16_apply (Y : FVec Ideal S100000x16 .f32) (W : FVec Ideal S16x7 .f32) (p : Fin 100000) (q : Fin 7) :
    Host.dotGeneral dot_S100000x16_S16x7_S100000x7_1_0_0_1_n_n none Y W (ix2 p q) = ∑ k : Fin 16, Y (ix2 p k) * W (ix2 k q) := by
  simp only [Host.dotGeneral]
  rw [Ideal.dotGeneral_apply, ← Equiv.sum_comp (contrEquiv1 dot_S100000x16_S16x7_S100000x7_1_0_0_1_n_n 16 rfl rfl).symm]
  refine Finset.sum_congr rfl fun k _ => ?_
  have hk := contrEquiv1_symm_val dot_S100000x16_S16x7_S100000x7_1_0_0_1_n_n 16 rfl rfl k
  have el : dot_S100000x16_S16x7_S100000x7_1_0_0_1_n_n.lhsIdx (ix2 p q) ((contrEquiv1 dot_S100000x16_S16x7_S100000x7_1_0_0_1_n_n 16 rfl rfl).symm k) = ix2 p k := funext fun a => Fin.ext (by
    match a with
    | ⟨0, _⟩ => exact lhs_main_v49_0 _ _
    | ⟨1, _⟩ => exact (lhs_main_v49_1 _ _).trans hk)
  have er : dot_S100000x16_S16x7_S100000x7_1_0_0_1_n_n.rhsIdx (ix2 p q) ((contrEquiv1 dot_S100000x16_S16x7_S100000x7_1_0_0_1_n_n 16 rfl rfl).symm k) = ix2 k q := funext fun a => Fin.ext (by
    match a with
    | ⟨0, _⟩ => exact (rhs_main_v49_0 _ _).trans hk
    | ⟨1, _⟩ => exact rhs_main_v49_1 _ _)
  rw [el, er]

/-- The bias row laid under every row of a 16-wide array: at `(p, k)` it is the bias at `k`. -/
theorem biasRows16_apply (b : FVec Ideal S16 .f32) (p : Fin 100000) (k : Fin 16) :
    broadcastInDim S100000x16 ![0, 1] bcast_S1x16_S100000x16_0_1 (broadcastInDim S1x16 ![1] bcast_S16_S1x16_1 b) (ix2 p k) = b (ix1 k) := by
  show val_main_v46 (F := Ideal) b (ix2 p k) = _
  rw [val_main_v46_apply, val_main_v45_apply]
  exact congrArg b (funext fun a => Fin.ext (by match a with | ⟨0, _⟩ => rfl))

theorem hidden_apply (A : FVec Ideal S100000x16 .f32) (b : FVec Ideal S16 .f32) (W : FVec Ideal S16x7 .f32) (p : Fin 100000) (q : Fin 7) :
    hidden A b W (ix2 p q) = ∑ k : Fin 16, max (A (ix2 p k) + b (ix1 k)) 0 * W (ix2 k q) := by
  unfold hidden
  rw [product16_apply]
  refine Finset.sum_congr rfl fun k _ => ?_
  refine congrArg (· * W (ix2 k q)) ?_
  show max (A (ix2 p k) + broadcastInDim S100000x16 ![0, 1] bcast_S1x16_S100000x16_0_1 (broadcastInDim S1x16 ![1] bcast_S16_S1x16_1 b) (ix2 p k))
      (Ideal.ofBits .f32 0x00000000#32) = _
  rw [biasRows16_apply, Ideal.ofBits_zero_f32]

/-! ## The output stage -/

/-- `A + b`: the bias row added to every row. -/
def logits (A : FVec Ideal S100000x7 .f32) (b : FVec Ideal S7 .f32) : FVec Ideal S100000x7 .f32 :=
  addf A (broadcastInDim S100000x7 ![0, 1] bcast_S1x7_S100000x7_0_1 (broadcastInDim S1x7 ![1] bcast_S7_S1x7_1 b))

theorem logits_apply (A : FVec Ideal S100000x7 .f32) (b : FVec Ideal S7 .f32) (p : Fin 100000) (q : Fin 7) :
    logits A b (ix2 p q) = A (ix2 p q) + b (ix1 q) := by
  show A (ix2 p q) + val_main_v64 (F := Ideal) b (ix2 p q) = _
  rw [val_main_v64_apply, val_main_v63_apply]
  exact congrArg (A (ix2 p q) + b ·) (funext fun a => Fin.ext (by match a with | ⟨0, _⟩ => rfl))

/-- The largest of a row's seven entries, on the extended reals (the fold of `max` from −∞). -/
def rowMax (L : FVec Ideal S100000x7 .f32) (p : Fin 100000) : EReal :=
  Finset.univ.fold max ⊥ (fun j : Fin 7 => L (ix2 p j))

/-- A row shifted by its maximum. -/
def shifted (L : FVec Ideal S100000x7 .f32) : FVec Ideal S100000x7 .f32 :=
  subf L (broadcastInDim S100000x7 ![0, 1] bcast_S100000x1_S100000x7_0_1 (broadcastInDim S100000x1 ![0] bcast_S100000_S100000x1_0
    (maximumf (broadcastInDim S100000 ![] bcast_S_S100000 (constant (F := Ideal) S_ .f32 0xFF800000#32))
      (Host.reduce FloatOps.maximumf L (constant (F := Ideal) S_ .f32 0xFF800000#32) reducesTo_S100000x7_S100000_d1 h_S_))))

/-- The row-wise log-softmax as the reference spells it: shift by the row's maximum, subtract the logarithm of the sum of
    the shifted row's exponentials. -/
def logSoftmax (L : FVec Ideal S100000x7 .f32) : FVec Ideal S100000x7 .f32 :=
  subf (shifted L) (broadcastInDim S100000x7 ![0, 1] bcast_S100000x1_S100000x7_0_1 (Host.log (broadcastInDim S100000x1 ![0] bcast_S100000_S100000x1_0
    (Host.reduceAdd (Host.exp (shifted L)) (constant (F := Ideal) S_ .f32 0x00000000#32) reducesTo_S100000x7_S100000_d1 h_S_))))

/-- The reference's result: the log-softmax of the biased second aggregated array. -/
def outputs (A : FVec Ideal S100000x7 .f32) (b : FVec Ideal S7 .f32) : FVec Ideal S100000x7 .f32 := logSoftmax (logits A b)

/-- The reference's result stage is `outputs` of its second aggregated array. -/
theorem val_main_v66_eq' (x0 : FVec Ideal S100000x512 .f32) (x1 : IVec S2x3200000 32) (x2 : FVec Ideal S512x16 .f32)
    (x3 : FVec Ideal S16 .f32) (x4 : FVec Ideal S16x7 .f32) (x5 : FVec Ideal S7 .f32) :
    val_main_v66 (F := Ideal) x0 x1 x2 x3 x4 x5 = outputs (val_main_v62 (F := Ideal) x0 x1 x2 x3 x4) x5 := rfl

/-- The pattern of −∞ denotes the bottom of the extended reals. -/
theorem ofBits_negInf : Ideal.ofBits .f32 0xFF800000#32 = (⊥ : EReal) := by
  simp [Ideal.ofBits, Ideal.ieee]

/-- A column laid under every lane: at `(p, q)` it is the column's entry of row `p`. -/
theorem lanes_apply (z : FVec Ideal S100000x1 .f32) (p : Fin 100000) (q : Fin 7) :
    broadcastInDim S100000x7 ![0, 1] bcast_S100000x1_S100000x7_0_1 z (ix2 p q) = z (ix2 p (0 : Fin 1)) :=
  broadcastInDim_apply _ bcast_S100000x1_S100000x7_0_1 z (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A vector of row values laid as a column: at `(p, 0)` it is the value of row `p`. -/
theorem column_apply (y : FVec Ideal S100000 .f32) (p : Fin 100000) :
    broadcastInDim S100000x1 ![0] bcast_S100000_S100000x1_0 y (ix2 p (0 : Fin 1)) = y (ix1 p) :=
  broadcastInDim_apply _ bcast_S100000_S100000x1_0 y (ix2 p (0 : Fin 1)) (ix1 p) (fun a => match a with
    | ⟨0, _⟩ => by show p.val = if (100000 : Nat) = 1 then 0 else p.val; rw [if_neg (by decide)])

/-- The reference's row maximum (a fold of `max` over the seven lanes from −∞) is `rowMax`. -/
theorem hostRowMax_apply (L : FVec Ideal S100000x7 .f32) (p : Fin 100000) :
    Host.reduce FloatOps.maximumf L (constant (F := Ideal) S_ .f32 0xFF800000#32) reducesTo_S100000x7_S100000_d1 h_S_ (ix1 p) = rowMax L p := by
  have h : S100000x7.Reduces [1] S100000 := by decide
  rw [Host.reduce_eq_fold_single FloatOps.maximumf L _ reducesTo_S100000x7_S100000_d1 h h_S_ (ix1 p)]
  have hf : (L ∘ h.lift (ix1 p)) = fun j : Fin 7 => L (ix2 p j) := funext fun j => congrArg L (funext fun d => Fin.ext (by
    match d with
    | ⟨0, _⟩ => rfl
    | ⟨1, _⟩ => rfl))
  rw [hf]
  show (Finset.univ : Finset (Fin 7)).fold max (Ideal.ofBits .f32 0xFF800000#32) (fun j => L (ix2 p j)) = _
  rw [ofBits_negInf]
  rfl

/-- The reference's row sum from zero is the sum of the row's seven entries. -/
theorem hostRowSum_apply (E : FVec Ideal S100000x7 .f32) (p : Fin 100000) :
    Host.reduceAdd E (constant (F := Ideal) S_ .f32 0x00000000#32) reducesTo_S100000x7_S100000_d1 h_S_ (ix1 p) = ∑ j : Fin 7, E (ix2 p j) := by
  simp only [Host.reduceAdd, Ideal.hostReduceAdd_def]
  rw [Ideal.hostReduceAdd_single reducesTo_S100000x7_S100000_d1 (by decide)]
  have h0 : (constant (F := Ideal) S_ .f32 0x00000000#32) (Shape.Idx.first h_S_) = (0 : EReal) := Ideal.ofBits_zero_f32
  rw [h0, zero_add]
  refine Finset.sum_congr rfl fun k _ => ?_
  exact congrArg E (funext fun a => Fin.ext (by match a with | ⟨0, _⟩ => rfl | ⟨1, _⟩ => rfl))

theorem shifted_apply (L : FVec Ideal S100000x7 .f32) (p : Fin 100000) (q : Fin 7) :
    shifted L (ix2 p q) = L (ix2 p q) - rowMax L p := by
  have hbot : broadcastInDim S100000 ![] bcast_S_S100000 (constant (F := Ideal) S_ .f32 0xFF800000#32) (ix1 p) = (⊥ : EReal) := by
    show val_main_call2_v1 (F := Ideal) (ix1 p) = _
    rw [val_main_call2_v1_apply, val_main_call2_cst_0_apply]
    exact ofBits_negInf
  unfold shifted
  rw [subf_apply, lanes_apply, column_apply, maximumf_apply, hostRowMax_apply, hbot, max_bot_left]

/-- The host's logarithm and exponential are taken entry by entry. -/
theorem hostLog_apply {s : Shape} (w : FVec Ideal s .f32) (i : s.Idx) : Host.log w i = Ideal.log (w i) := rfl
theorem hostExp_apply {s : Shape} (w : FVec Ideal s .f32) (i : s.Idx) : Host.exp w i = Ideal.exp (w i) := rfl

theorem logSoftmax_apply (L : FVec Ideal S100000x7 .f32) (p : Fin 100000) (q : Fin 7) :
    logSoftmax L (ix2 p q) = (L (ix2 p q) - rowMax L p) - Ideal.log (∑ j : Fin 7, Ideal.exp (L (ix2 p j) - rowMax L p)) := by
  unfold logSoftmax
  rw [subf_apply, shifted_apply, lanes_apply]
  refine congrArg (L (ix2 p q) - rowMax L p - ·) ?_
  rw [hostLog_apply, column_apply, hostRowSum_apply]
  refine congrArg Ideal.log (Finset.sum_congr rfl fun j _ => ?_)
  rw [hostExp_apply, shifted_apply]

theorem outputs_apply (A : FVec Ideal S100000x7 .f32) (b : FVec Ideal S7 .f32) (p : Fin 100000) (q : Fin 7) :
    outputs A b (ix2 p q) = (A (ix2 p q) + b (ix1 q) - rowMax (logits A b) p)
      - Ideal.log (∑ j : Fin 7, Ideal.exp (A (ix2 p j) + b (ix1 j) - rowMax (logits A b) p)) := by
  unfold outputs
  rw [logSoftmax_apply]
  simp only [logits_apply]

theorem rowMax_logits (A : FVec Ideal S100000x7 .f32) (b : FVec Ideal S7 .f32) (p : Fin 100000) :
    rowMax (logits A b) p = Finset.univ.fold max ⊥ (fun j : Fin 7 => A (ix2 p j) + b (ix1 j)) := by
  unfold rowMax
  simp only [logits_apply]

end Cert.Layers

end
-- ==== Proof.Region0.lean ====
/-
  Region 0 (the row-tiled feature transform): what its output array holds after the region.

  The region walks fifty points. Point t loads rows 2000·t … 2000·t + 1999 of x (all 512 columns) and the whole of W₁,
  and stores their matrix product, a [2000,16] block, as rows 2000·t … 2000·t + 1999 of the output array. Entry (a, q)
  of that block is ∑ k < 512, x (2000·t + a, k) · W₁ (k, q): the narrowing of the operands is the identity on the
  extended reals and the accumulator starts at zero. This is entry (2000·t + a, q) of the reference's product, because
  an entry of x · W₁ depends on its own row of x and on W₁ only. Row r lies in the block of point r / 2000, so the
  fifty blocks cover the array, which therefore ends holding x · W₁.
-/
import proofs.«101365_j87875030876683_1_alg».proof.Proof.Gen.KernelIdeal.Frame
import proofs.«101365_j87875030876683_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block product at an entry -/

/-- The left operand of the block product is read in the result's row … -/
theorem lhs_row (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
/-- … at the contracted position; -/
theorem lhs_contracted (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
/-- the right operand at the contracted position … -/
theorem rhs_contracted (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
/-- … in the result's column. -/
theorem rhs_column (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- Entry `(a, q)` of what the body stores: row `a` of the loaded block of `x` against column `q` of the loaded `W₁`
    (the narrowing of both operands is the identity on the extended reals; the accumulator is the zero splat). -/
theorem blockProduct_apply (x : Vec Ideal S2000x512 .f32) (w : Vec Ideal S512x16 .f32) (a : Fin 2000) (q : Fin 16) :
    k0_pay1 (F := Ideal) x w (ix2 a q) = ∑ k : Fin 512, x (ix2 a k) * w (ix2 k q) := by
  unfold k0_pay1
  show FloatOps.matmul dot_S2000x512_S512x16_S2000x16_1_0_0_1_n_n none (truncf .bf16 x bitsLt_bf16_f32) (truncf .bf16 w bitsLt_bf16_f32)
      (constant (F := Ideal) S2000x16 .f32 0x00000000#32) (ix2 a q) = _
  rw [Ideal.matmul_constant_zero_apply, ← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx (ix2 a q) ((contrEquiv1 dot_S2000x512_S512x16_S2000x16_1_0_0_1_n_n 512 rfl rfl).symm k) = ix2 a k := funext fun d => Fin.ext (by
    match d with
    | ⟨0, _⟩ => exact lhs_row _ _
    | ⟨1, _⟩ => exact (lhs_contracted _ _).trans hk)
  have er : dot_S2000x512_S512x16_S2000x16_1_0_0_1_n_n.rhsIdx (ix2 a q) ((contrEquiv1 dot_S2000x512_S512x16_S2000x16_1_0_0_1_n_n 512 rfl rfl).symm k) = ix2 k q := funext fun d => Fin.ext (by
    match d with
    | ⟨0, _⟩ => exact (rhs_contracted _ _).trans hk
    | ⟨1, _⟩ => exact rhs_column _ _)
  rw [el, er]
  rfl

/-! ## From the fifty blocks to the array -/

/-- The body loads and stores its whole staging buffers: every access starts at offset zero on both axes. -/
theorem offsets_zero : (![0, 0] : Fin 2 → Nat) = fun _ => 0 :=
  funext fun a => by match a with | ⟨0, _⟩ => rfl | ⟨1, _⟩ => rfl

/-- The three index maps over the grid: point `t` takes row block `t` of `x` and of the output (column block 0),
    and block (0, 0), the whole, of `W₁`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the TensorCore's buffer contents when the region is entered
variable (V : (c : Dev nD) → (b : Ref sig .tc) → Buf (Elt Ideal) ((c : Thread nD τ).loc b))

/-- WHAT POINT `t` WRITES BACK is block `t` of the reference's product of the two arrays the region reads: entry
    `(a, q)` of the stored block is the sum over `k` of `x (2000·t + a, k) · W₁ (k, q)`. -/
theorem flushed_eq (c : Dev nD) (t : Fin cfg0.N) :
    (dat0 (F := Ideal) V c).flushed 2 t
      = ((cfg0.win 2).blk t).view.read (Elt Ideal)
          (Cert.ReferenceIdeal.ReadP.val_main_v31 (F := Ideal) (V c main_arg0) (V c main_arg2)) := by
  show (cfg0.win 2).cut (grid0.coords t) ((dat0 V c).after 2 t) = _
  rw [after0_2]
  unfold out0_2
  rw [View.canon_unit_zero offsets_zero]
  simp only [View.ld_unit_zero (S := S2000x512) offsets_zero, View.ld_unit_zero (S := S512x16) offsets_zero]
  obtain ⟨e0, e1, e2, e3, e4, e5⟩ := index_facts t
  have ht : t.val < 50 := Nat.lt_of_lt_of_eq t.isLt N_0
  funext j
  obtain ⟨a, q, rfl⟩ : ∃ (a : Fin 2000) (q : Fin 16), j = ix2 a q := ⟨j 0, j 1, eq_ix2 j⟩
  have ha : a.val < 2000 := a.isLt
  -- the row of the arrays this entry sits in
  obtain ⟨p, hp⟩ : ∃ p : Fin 100000, p.val = 2000 * t.val + a.val := ⟨⟨2000 * t.val + a.val, by omega⟩, rfl⟩
  show k0_pay1 (iblk0 V c 0 t) (iblk0 V c 1 t) (ix2 a q)
    = Cert.ReferenceIdeal.ReadP.val_main_v31 (F := Ideal) (V c main_arg0) (V c main_arg2) (((cfg0.win 2).blk t).view.emb (ix2 a q))
  refine (blockProduct_apply _ _ a q).trans ?_
  have hout : ((cfg0.win 2).blk t).view.emb (ix2 a q) = ix2 p q := by
    funext d; apply Fin.ext
    match d with
    | ⟨0, _⟩ => show win0_2.index t (0 : Fin 2) * 2000 + 1 * a.val = p.val; omega
    | ⟨1, _⟩ => show win0_2.index t (1 : Fin 2) * 16 + 1 * q.val = q.val; omega
  rw [hout, Cert.Layers.features_apply]
  refine Finset.sum_congr rfl fun k _ => ?_
  have hx : iblk0 V c 0 t (ix2 a k) = (V c main_arg0 : S100000x512.Idx → EReal) (ix2 p k) := by
    show V c main_arg0 (((cfg0.win 0).blk t).view.emb (ix2 a k)) = _
    refine congrArg _ ?_
    funext d; apply Fin.ext
    match d with
    | ⟨0, _⟩ => show win0_0.index t (0 : Fin 2) * 2000 + 1 * a.val = p.val; omega
    | ⟨1, _⟩ => show win0_0.index t (1 : Fin 2) * 512 + 1 * k.val = k.val; omega
  have hw : iblk0 V c 1 t (ix2 k q) = (V c main_arg2 : S512x16.Idx → EReal) (ix2 k q) := by
    show V c main_arg2 (((cfg0.win 1).blk t).view.emb (ix2 k q)) = _
    refine congrArg _ ?_
    funext d; apply Fin.ext
    match d with
    | ⟨0, _⟩ => show win0_1.index t (0 : Fin 2) * 512 + 1 * k.val = k.val; omega
    | ⟨1, _⟩ => show win0_1.index t (1 : Fin 2) * 16 + 1 * q.val = q.val; omega
  rw [hx, hw]

/-- An index of the output array is in point `t`'s block iff each coordinate is in the block's range on its axis. -/
theorem mem_block (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v31).slice (win0_2.rect t)).set ↔ _
  rw [View.set_slice_whole, Rect.mem_set_unit]
  exact Iff.rfl

/-- THE BLOCKS COVER THE ARRAY: row `r` is written back by point `r / 2000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, e4, e5⟩ := index_facts t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After region 0 its output array is the reference's first matrix product of the two arrays the region reads. -/
theorem arr_eq (c : Dev nD) :
    (dat0 (F := Ideal) V c).arrAt 2 cfg0.N
      = Cert.ReferenceIdeal.ReadP.val_main_v31 (F := Ideal) (V c main_arg0) (V c main_arg2) :=
  (dat0 (F := Ideal) V c).arrAt_eq_of_cover 2 _ (fun t _ => flushed_eq V c t) covered

end Cert.KernelIdeal.Region0

end
-- ==== Proof.Region1.lean ====
/-
  Region 1 (bias, relu and the hidden transform, row-tiled): what its output array holds after the region.

  The grid has 50 points. At point `t` the kernel reads rows `2000 t … 2000 t + 1999` of the aggregated array `A`
  (a [2000, 16] block), the whole one-row bias and the whole [16, 7] weight matrix, and writes the [2000, 7] block
  of the same rows of the output. Entry `(a, q)` of that block is `∑ k < 16, max (A (2000 t + a, k) + b k) 0 · W (k, q)`:
  it depends on row `2000 t + a` of `A` only, so the block is the restriction of `relu (A + b) · W` to those rows.
  Row `r` of the output lies in the block of point `r / 2000`, and `100000 = 50 · 2000`, so the 50 blocks cover the
  array, which therefore ends holding `relu (A + b) · W` everywhere.
-/
import proofs.«101365_j87875030876683_1_alg».proof.Proof.Gen.KernelIdeal.Frame
import proofs.«101365_j87875030876683_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block's matrix product at an entry -/

/-- The left operand of the block's product is read at the output's row … -/
theorem lhs_dot_0 (i : S2000x7.Idx) (q : dot_S2000x16_S16x7_S2000x7_1_0_0_1_n_n.contr.Idx) :
    (dot_S2000x16_S16x7_S2000x7_1_0_0_1_n_n.lhsIdx i q 0).val = (i 0).val := by
  unfold DotDims.lhsIdx
  rw [dif_neg (show ¬(0 : Fin S2000x16.rank) ∈ dot_S2000x16_S16x7_S2000x7_1_0_0_1_n_n.lhsBatch by decide), dif_pos (show (0 : Fin S2000x16.rank) ∈ dot_S2000x16_S16x7_S2000x7_1_0_0_1_n_n.lhsNonContracting by decide)]
  rfl
/-- … and at the contraction index along its columns; -/
theorem lhs_dot_1 (i : S2000x7.Idx) (q : dot_S2000x16_S16x7_S2000x7_1_0_0_1_n_n.contr.Idx) :
    (dot_S2000x16_S16x7_S2000x7_1_0_0_1_n_n.lhsIdx i q 1).val = (q ⟨0, by decide⟩).val :=
  dot_S2000x16_S16x7_S2000x7_1_0_0_1_n_n.lhsIdx_val_of_single rfl i q
/-- the right operand at the contraction index along its rows … -/
theorem rhs_dot_0 (i : S2000x7.Idx) (q : dot_S2000x16_S16x7_S2000x7_1_0_0_1_n_n.contr.Idx) :
    (dot_S2000x16_S16x7_S2000x7_1_0_0_1_n_n.rhsIdx i q 0).val = (q ⟨0, by decide⟩).val :=
  dot_S2000x16_S16x7_S2000x7_1_0_0_1_n_n.rhsIdx_val_of_single rfl i q
/-- … and at the output's column. -/
theorem rhs_dot_1 (i : S2000x7.Idx) (q : dot_S2000x16_S16x7_S2000x7_1_0_0_1_n_n.contr.Idx) :
    (dot_S2000x16_S16x7_S2000x7_1_0_0_1_n_n.rhsIdx i q 1).val = (i 1).val := by
  unfold DotDims.rhsIdx
  rw [dif_neg (show ¬(1 : Fin S16x7.rank) ∈ dot_S2000x16_S16x7_S2000x7_1_0_0_1_n_n.rhsBatch by decide), dif_pos (show (1 : Fin S16x7.rank) ∈ dot_S2000x16_S16x7_S2000x7_1_0_0_1_n_n.rhsNonContracting by decide)]
  rfl

/-- A [2000, 16] by [16, 7] product into the zero accumulator, at `(a, q)`: row `a` of the left operand against column `q`
    of the right one. -/
theorem product_apply (L : FVec Ideal S2000x16 .bf16) (R : FVec Ideal S16x7 .bf16) (a : Fin 2000) (q : Fin 7) :
    FloatOps.matmul dot_S2000x16_S16x7_S2000x7_1_0_0_1_n_n none L R (constant S2000x7 .f32 0x00000000#32) (ix2 a q)
      = ∑ k : Fin 16, L (ix2 a k) * R (ix2 k q) := by
  rw [Ideal.matmul_constant_zero_apply, ← Equiv.sum_comp (contrEquiv1 dot_S2000x16_S16x7_S2000x7_1_0_0_1_n_n 16 rfl rfl).symm]
  refine Finset.sum_congr rfl fun k _ => ?_
  have hk := contrEquiv1_symm_val dot_S2000x16_S16x7_S2000x7_1_0_0_1_n_n 16 rfl rfl k
  have el : dot_S2000x16_S16x7_S2000x7_1_0_0_1_n_n.lhsIdx (ix2 a q) ((contrEquiv1 dot_S2000x16_S16x7_S2000x7_1_0_0_1_n_n 16 rfl rfl).symm k) = ix2 a k := funext fun ax => Fin.ext (by
    match ax with
    | ⟨0, _⟩ => exact lhs_dot_0 _ _
    | ⟨1, _⟩ => exact (lhs_dot_1 _ _).trans hk)
  have er : dot_S2000x16_S16x7_S2000x7_1_0_0_1_n_n.rhsIdx (ix2 a q) ((contrEquiv1 dot_S2000x16_S16x7_S2000x7_1_0_0_1_n_n 16 rfl rfl).symm k) = ix2 k q := funext fun ax => Fin.ext (by
    match ax with
    | ⟨0, _⟩ => exact (rhs_dot_0 _ _).trans hk
    | ⟨1, _⟩ => exact rhs_dot_1 _ _)
  rw [el, er]

/-! ## The body's block at an entry -/

/-- What the body stores at `(a, q)` of its output block, from the blocks it loaded: the bias row added to row `a` of the
    aggregated block, negative entries cut to zero, and that row against column `q` of the weights (the narrowings to
    bf16 are the identity on the extended reals, and the accumulator is the zero splat). -/
theorem block_apply (x0 : Vec Ideal S2000x16 .f32) (x1 : Vec Ideal S1x16 .f32) (x2 : Vec Ideal S16x7 .f32) (a : Fin 2000) (q : Fin 7) :
    k1_pay1 x0 x1 x2 (ix2 a q) = ∑ k : Fin 16, max (x0 (ix2 a k) + x1 (ix2 (0 : Fin 1) k)) 0 * x2 (ix2 k q) := by
  unfold k1_pay1
  refine (product_apply _ _ a q).trans ?_
  refine Finset.sum_congr rfl fun k _ => ?_
  show max (shapeCast S2000x16 x0 shapeCasts_S2000x16_S2000x16 (ix2 a k) + broadcastTo S2000x16 (shapeCast S1x16 x1 shapeCasts_S1x16_S1x16) broadcasts_S1x16_S2000x16 (ix2 a k)) (Ideal.ofBits .f32 0x00000000#32) * x2 (ix2 k q) = _
  rw [shapeCast_self, shapeCast_self, broadcastTo_1b_ab_apply, Ideal.ofBits_zero_f32]

/-! ## From blocks to the array -/

-- the TensorCore's buffer contents when the region is entered
variable (V : (c : Dev nD) → (b : Ref sig .tc) → Buf (Elt Ideal) ((c : Thread nD τ).loc b))

/-- The body's loads and its store are at zero offsets. -/
theorem zero_offsets : (![0, 0] : Fin 2 → Nat) = fun _ => 0 := funext fun a => by fin_cases a <;> rfl

/-- The printed index maps, decided over the grid: at point `t` the aggregated array's and the output's block is the
    `t`-th along the rows and the only one along the columns; the bias and the weights have one block each. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Fifty points. -/
theorem point_lt (t : Fin cfg1.N) : t.val < 50 := lt_of_lt_of_eq t.isLt N_1

/-- Entry `(a, k)` of the aggregated array's block at point `t` is the array's entry `(2000 t + a, k)`. -/
theorem rows_block (c : Dev nD) (t : Fin cfg1.N) (a : Fin 2000) (k : Fin 16) (h : t.val * 2000 + a.val < 100000) :
    iblk1 V c 0 t (ix2 a k) = V c main_v44 (ix2 (⟨t.val * 2000 + a.val, h⟩ : Fin 100000) k) := by
  obtain ⟨e0, e1, -⟩ := index_facts t
  show V c main_v44 (((cfg1.win 0).blk t).view.emb (ix2 a k)) = _
  refine congrArg _ (funext fun ax => Fin.ext ?_)
  match ax with
  | ⟨0, _⟩ => show win1_0.index t (0 : Fin 2) * 2000 + 1 * a.val = t.val * 2000 + a.val; omega
  | ⟨1, _⟩ => show win1_0.index t (1 : Fin 2) * 16 + 1 * k.val = k.val; omega

/-- The bias's block at any point is its whole one-row array. -/
theorem bias_block (c : Dev nD) (t : Fin cfg1.N) (k : Fin 16) :
    iblk1 V c 1 t (ix2 (0 : Fin 1) k) = V c main_v45 (ix2 (0 : Fin 1) k) := by
  obtain ⟨-, -, e0, e1, -⟩ := index_facts t
  show V c main_v45 (((cfg1.win 1).blk t).view.emb (ix2 (0 : Fin 1) k)) = _
  refine congrArg _ (funext fun ax => Fin.ext ?_)
  match ax with
  | ⟨0, _⟩ => show win1_1.index t (0 : Fin 2) * 1 + 1 * (0 : Fin 1).val = (0 : Fin 1).val; omega
  | ⟨1, _⟩ => show win1_1.index t (1 : Fin 2) * 16 + 1 * k.val = k.val; omega

/-- The weights' block at any point is the whole matrix. -/
theorem weights_block (c : Dev nD) (t : Fin cfg1.N) (k : Fin 16) (q : Fin 7) :
    iblk1 V c 2 t (ix2 k q) = V c main_arg4 (ix2 k q) := by
  obtain ⟨-, -, -, -, e0, e1, -⟩ := index_facts t
  show V c main_arg4 (((cfg1.win 2).blk t).view.emb (ix2 k q)) = _
  refine congrArg _ (funext fun ax => Fin.ext ?_)
  match ax with
  | ⟨0, _⟩ => show win1_2.index t (0 : Fin 2) * 16 + 1 * k.val = k.val; omega
  | ⟨1, _⟩ => show win1_2.index t (1 : Fin 2) * 7 + 1 * q.val = q.val; omega

/-- Entry `(a, q)` of the output's block at point `t` sits at `(2000 t + a, q)` of the output array. -/
theorem out_index (t : Fin cfg1.N) (a : Fin 2000) (q : Fin 7) (h : t.val * 2000 + a.val < 100000) :
    (((cfg1.win 3).blk t).view.emb (ix2 a q) : S100000x7.Idx) = ix2 (⟨t.val * 2000 + a.val, h⟩ : Fin 100000) q := by
  obtain ⟨-, -, -, -, -, -, e0, e1⟩ := index_facts t
  refine funext fun ax => Fin.ext ?_
  match ax with
  | ⟨0, _⟩ => show win1_3.index t (0 : Fin 2) * 2000 + 1 * a.val = t.val * 2000 + a.val; omega
  | ⟨1, _⟩ => show win1_3.index t (1 : Fin 2) * 7 + 1 * q.val = q.val; omega

/-- WHAT POINT `t` WRITES BACK is block `t` of `relu (A + b) · W`, of the arrays as the region finds them. -/
theorem flushed_eq (c : Dev nD) (b : FVec Ideal S16 .f32)
    (hb : ∀ k : Fin 16, V c main_v45 (ix2 (0 : Fin 1) k) = b (ix1 k)) (t : Fin cfg1.N) :
    (dat1 (F := Ideal) V c).flushed 3 t
      = ((cfg1.win 3).blk t).view.read (Elt Ideal) (Cert.Layers.hidden (V c main_v44) b (V c main_arg4)) := by
  show (cfg1.win 3).cut (grid1.coords t) ((dat1 (F := Ideal) V c).after 3 t) = _
  rw [after1_3]
  unfold out1_3
  rw [View.canon_unit_zero zero_offsets]
  simp only [View.ld_unit_zero (S := S2000x16) zero_offsets, View.ld_unit_zero (S := S1x16) zero_offsets,
    View.ld_unit_zero (S := S16x7) zero_offsets]
  refine funext fun (j : S2000x7.Idx) => ?_
  obtain ⟨a, q, rfl⟩ : ∃ (a : Fin 2000) (q : Fin 7), j = ix2 a q := ⟨j 0, j 1, eq_ix2 j⟩
  have ht := point_lt t
  have ha : a.val < 2000 := a.isLt
  have hrow : t.val * 2000 + a.val < 100000 := by omega
  show k1_pay1 (iblk1 V c 0 t) (iblk1 V c 1 t) (iblk1 V c 2 t) (ix2 a q)
    = Cert.Layers.hidden (V c main_v44) b (V c main_arg4) (((cfg1.win 3).blk t).view.emb (ix2 a q))
  rw [out_index t a q hrow, block_apply, Cert.Layers.hidden_apply]
  refine Finset.sum_congr rfl fun k _ => ?_
  rw [rows_block V c t a k hrow, bias_block V c t k, weights_block V c t k q, hb k]

/-- An index of the output array is in point `t`'s block iff each coordinate is in the block's range on its axis. -/
theorem mem_block (t : Fin cfg1.N) (i : S100000x7.Idx) :
    i ∈ ((cfg1.win 3).blk t).view.set ↔ ∀ a : Fin 2, win1_3.index t a * S2000x7.size a ≤ (i a).val ∧ (i a).val < win1_3.index t a * S2000x7.size a + S2000x7.size a := by
  show i ∈ ((View.whole main_v46).slice (win1_3.rect t)).set ↔ _
  rw [View.set_slice_whole, Rect.mem_set_unit]
  exact Iff.rfl

/-- Row `r` of the output lies in the block of point `r / 2000`: the fifty blocks cover the array. -/
theorem covered (i : S100000x7.Idx) :
    ∃ t : Fin cfg1.N, (cfg1.win 3).flush t = true ∧ i ∈ ((cfg1.win 3).blk t).view.set := by
  have hi0 : (i 0).val < 100000 := (i 0).isLt
  have hi1 : (i 1).val < 7 := (i 1).isLt
  have hN : grid1.N = 50 := N_1
  let t : Fin cfg1.N := ⟨(i 0).val / 2000, by show (i 0).val / 2000 < grid1.N; omega⟩
  obtain ⟨-, -, -, -, -, -, e0, e1⟩ := index_facts t
  have e0' : win1_3.index t (0 : Fin 2) = (i 0).val / 2000 := e0
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 7 ≤ (i 1).val ∧ (i 1).val < win1_3.index t (1 : Fin 2) * 7 + 7; omega

/-- After region 1 its output array is `relu (A + b) · W` of the aggregated array `A` it reads, the bias `b` whose
    one-row re-laying it reads, and the weights. -/
theorem arr_eq (c : Dev nD) (b : FVec Ideal S16 .f32)
    (hb : ∀ k : Fin 16, V c main_v45 (ix2 (0 : Fin 1) k) = b (ix1 k)) :
    (dat1 (F := Ideal) V c).arrAt 3 cfg1.N = Cert.Layers.hidden (V c main_v44) b (V c main_arg4) :=
  (dat1 (F := Ideal) V c).arrAt_eq_of_cover 3 (Cert.Layers.hidden (V c main_v44) b (V c main_arg4))
    (fun t _ => flushed_eq V c b hb t) covered

end Cert.KernelIdeal.Region1

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Region2.lean ====
/-
  Region 2 (bias and row-wise log-softmax, row-tiled): what its output array holds after the region.

  Grid point t holds rows 2000·t … 2000·t + 1999 of the aggregated array A (a [2000, 7] block) and the whole one-row
  bias b. Entry (a, q) of the block it writes depends on row a of its input block only: with ℓ j = A (a, j) + b j over the
  seven lanes and M = max_j ℓ j (a fold of max from −∞), it is (ℓ q − M) − log ∑ j, exp (ℓ j − M). Row a of block t is
  row 2000·t + a of the array, so the point writes the array-wide log-softmax of A + b restricted to its rows; row r lies
  in the block of point r / 2000, so the fifty blocks cover the 100000 rows and the array ends holding that function.
-/
import proofs.«101365_j87875030876683_1_alg».proof.Proof.Gen.KernelIdeal.Frame
import proofs.«101365_j87875030876683_1_alg».proof.Proof.Layers
import proofs.«101365_j87875030876683_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Lib.Column

/-! ## The row maximum and the pointwise transcendental operations, read at an index -/

/-- The word the maximum is folded from is −∞. -/
theorem ofBits_negInf_f32 : Ideal.ofBits .f32 0xFF800000#32 = (⊥ : EReal) := by
  simp [Ideal.ofBits, Ideal.ieee]

/-- The maximum along the rows of an [a, d] block, folded from −∞, read at row i: the fold of max over the row's d
    entries. -/
theorem rowMax_apply {a d : ℕ} (src : FVec Ideal ⟨2, ![a, d]⟩ .f32) (h : (⟨2, ![a, d]⟩ : Shape).Reduces [1] ⟨1, ![a]⟩)
    (hφ : FKind.Formats .f32) (hacc : (0xFF800000#32 : BitVec 32) = 0xFF800000#32) (i : Fin a) :
    multiReduction (F := Ideal) .maximumf [1] ⟨1, ![a]⟩ src 0xFF800000#32 h hφ hacc (ix1 i)
      = Finset.univ.fold max ⊥ (fun k : Fin d => src (ix2 i k)) := by
  refine (Ideal.multiReduction_maximumf_single src _ h hφ hacc (ix1 i)).trans ?_
  show (Finset.univ : Finset (Fin d)).fold max (Ideal.ofBits .f32 0xFF800000#32) (fun k : Fin d => src (h.lift (ix1 i) k)) = _
  rw [ofBits_negInf_f32]
  refine Finset.fold_congr fun k _ => congrArg src (funext fun c => Fin.ext ?_)
  match c with
  | ⟨0, _⟩ => rfl
  | ⟨1, _⟩ => rfl

/-- An exponential of a vector is taken entry by entry. -/
theorem exp_apply {s : Shape} {φ : FTy} (v : FVec Ideal s φ) (i : s.Idx) : exp v i = Ideal.exp (v i) := rfl

/-- A logarithm of a vector is taken entry by entry. -/
theorem log_apply {s : Shape} {φ : FTy} (v : FVec Ideal s φ) (i : s.Idx) : log v i = Ideal.log (v i) := rfl

/-! ## The kernel's payload at an entry of a block -/

section Payload

variable (x0 : Vec Ideal S2000x7 .f32) (x1 : Vec Ideal S1x7 .f32)

/-- A block with the bias row added to each of its rows. -/
def biased : FVec Ideal S2000x7 .f32 :=
  addf (shapeCast S2000x7 x0 shapeCasts_S2000x7_S2000x7)
    (broadcastTo S2000x7 (shapeCast S1x7 x1 shapeCasts_S1x7_S1x7) broadcasts_S1x7_S2000x7)

theorem biased_apply (a : Fin 2000) (q : Fin 7) :
    biased x0 x1 (ix2 a q) = x0 (ix2 a q) + x1 (ix2 (0 : Fin 1) q) := by
  unfold biased
  rw [addf_apply, shapeCast_self, shapeCast_self, broadcastTo_1b_ab_apply]

/-- The largest of row a's seven biased entries. -/
def top (a : Fin 2000) : EReal := Finset.univ.fold max ⊥ (fun j : Fin 7 => x0 (ix2 a j) + x1 (ix2 (0 : Fin 1) j))

/-- Each biased row less its largest entry. -/
def lowered : FVec Ideal S2000x7 .f32 :=
  subf (biased x0 x1) (broadcastTo S2000x7 (shapeCast S2000x1
    (multiReduction (F := Ideal) .maximumf [1] S2000 (biased x0 x1) 0xFF800000#32 reduces_S2000x7_S2000 (.inl rfl) rfl)
    shapeCasts_S2000_S2000x1) broadcasts_S2000x1_S2000x7)

theorem lowered_apply (a : Fin 2000) (q : Fin 7) :
    lowered x0 x1 (ix2 a q) = x0 (ix2 a q) + x1 (ix2 (0 : Fin 1) q) - top x0 x1 a := by
  unfold lowered top
  rw [subf_apply, broadcastTo_a1_ab_apply, shapeCast_a_a1_apply, biased_apply]
  refine congrArg (fun m : EReal => x0 (ix2 a q) + x1 (ix2 (0 : Fin 1) q) - m) ?_
  refine (rowMax_apply (biased x0 x1) reduces_S2000x7_S2000 (.inl rfl) rfl a).trans ?_
  exact Finset.fold_congr fun j _ => biased_apply x0 x1 a j

/-- The payload is the lowered block less, row by row, the logarithm of the sum of its exponentials. -/
theorem pay_eq : k2_pay1 (F := Ideal) x0 x1
    = subf (lowered x0 x1) (broadcastTo S2000x7 (log (shapeCast S2000x1
        (multiReduction (F := Ideal) .add [1] S2000 (exp (lowered x0 x1)) 0x00000000#32 reduces_S2000x7_S2000 (.inl rfl) rfl)
        shapeCasts_S2000_S2000x1)) broadcasts_S2000x1_S2000x7) := rfl

/-- The payload at entry (a, q): the log-softmax of row a's biased entries, at lane q. -/
theorem pay_apply (a : Fin 2000) (q : Fin 7) :
    k2_pay1 (F := Ideal) x0 x1 (ix2 a q)
      = (x0 (ix2 a q) + x1 (ix2 (0 : Fin 1) q) - top x0 x1 a)
        - Ideal.log (∑ j : Fin 7, Ideal.exp (x0 (ix2 a j) + x1 (ix2 (0 : Fin 1) j) - top x0 x1 a)) := by
  rw [pay_eq, subf_apply, broadcastTo_a1_ab_apply, log_apply, shapeCast_a_a1_apply, lowered_apply]
  refine congrArg (fun s : EReal => x0 (ix2 a q) + x1 (ix2 (0 : Fin 1) q) - top x0 x1 a - Ideal.log s) ?_
  refine (rowSum_apply (exp (lowered x0 x1)) 0x00000000#32 reduces_S2000x7_S2000 (.inl rfl) rfl a).trans ?_
  exact Finset.sum_congr rfl fun j _ => by rw [exp_apply, lowered_apply]

end Payload

/-! ## From blocks to the array -/

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point t's input and output blocks are the t-th row block, all seven lanes; the bias
    window is the whole row at every point. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row a of point t's input block is row 2000·t + a of the aggregated array. -/
theorem inBlock_apply (c : Dev nD) (t : Fin cfg2.N) (a : Fin 2000) (j : Fin 7) (p : Fin 100000)
    (hp : p.val = t.val * 2000 + a.val) :
    iblk2 V c 0 t (ix2 a j) = V c main_v59 (ix2 p j) := by
  obtain ⟨e0, e1, -⟩ := index_facts t
  show V c main_v59 (((cfg2.win 0).blk t).view.emb (ix2 a j)) = V c main_v59 (ix2 p j)
  refine congrArg _ (funext fun ax => Fin.ext ?_)
  match ax with
  | ⟨0, _⟩ => show win2_0.index t (0 : Fin 2) * 2000 + 1 * a.val = p.val; omega
  | ⟨1, _⟩ => show win2_0.index t (1 : Fin 2) * 7 + 1 * j.val = j.val; omega

/-- The bias window's block is the whole one-row array at every point. -/
theorem biasBlock_apply (c : Dev nD) (t : Fin cfg2.N) (j : Fin 7) :
    iblk2 V c 1 t (ix2 (0 : Fin 1) j) = V c main_v60 (ix2 (0 : Fin 1) j) := by
  obtain ⟨-, -, e2, e3, -⟩ := index_facts t
  show V c main_v60 (((cfg2.win 1).blk t).view.emb (ix2 (0 : Fin 1) j)) = V c main_v60 (ix2 (0 : Fin 1) j)
  refine congrArg _ (funext fun ax => Fin.ext ?_)
  match ax with
  | ⟨0, _⟩ => show win2_1.index t (0 : Fin 2) * 1 + 1 * 0 = 0; omega
  | ⟨1, _⟩ => show win2_1.index t (1 : Fin 2) * 7 + 1 * j.val = j.val; omega

/-- WHAT POINT t WRITES BACK is block t of the array-wide log-softmax of the biased aggregated array. -/
theorem flushed_eq (c : Dev nD) (b : FVec Ideal S7 .f32)
    (hb : ∀ k : Fin 7, V c main_v60 (ix2 (0 : Fin 1) k) = b (ix1 k)) (t : Fin cfg2.N) :
    (dat2 (F := Ideal) V c).flushed 2 t
      = ((cfg2.win 2).blk t).view.read (Elt Ideal) (Cert.Layers.outputs (V c main_v59) b) := by
  show (cfg2.win 2).cut (grid2.coords t) ((dat2 V c).after 2 t) = _
  rw [after2_2]
  unfold out2_2
  rw [View.canon_unit_zero hz]
  simp only [View.ld_unit_zero (S := S2000x7) hz, View.ld_unit_zero (S := S1x7) hz]
  obtain ⟨-, -, -, -, e4, e5⟩ := index_facts t
  have ht : t.val < 50 := lt_of_lt_of_eq t.isLt N_2
  funext j
  obtain ⟨a, q, rfl⟩ : ∃ (a : Fin 2000) (q : Fin 7), j = ix2 a q := ⟨j 0, j 1, eq_ix2 j⟩
  have ha : a.val < 2000 := a.isLt
  let p : Fin 100000 := ⟨t.val * 2000 + a.val, by omega⟩
  have hemb : ((cfg2.win 2).blk t).view.emb (ix2 a q) = ix2 p q := by
    funext ax; apply Fin.ext
    match ax with
    | ⟨0, _⟩ => show win2_2.index t (0 : Fin 2) * 2000 + 1 * a.val = t.val * 2000 + a.val; omega
    | ⟨1, _⟩ => show win2_2.index t (1 : Fin 2) * 7 + 1 * q.val = q.val; omega
  show k2_pay1 (F := Ideal) (iblk2 V c 0 t) (iblk2 V c 1 t) (ix2 a q)
    = Cert.Layers.outputs (V c main_v59) b (((cfg2.win 2).blk t).view.emb (ix2 a q))
  rw [hemb, Cert.Layers.outputs_apply, Cert.Layers.rowMax_logits, pay_apply]
  unfold top
  simp only [inBlock_apply V c t a _ p rfl, biasBlock_apply V c t, hb]

/-- An index of the array is in point t's block iff each coordinate is in the block's range on its axis. -/
theorem mem_blk (t : Fin cfg2.N) (i : S100000x7.Idx) :
    i ∈ ((cfg2.win 2).blk t).view.set ↔ ∀ a : Fin 2, win2_2.index t a * S2000x7.size a ≤ (i a).val ∧ (i a).val < win2_2.index t a * S2000x7.size a + S2000x7.size a := by
  show i ∈ ((View.whole main_v61).slice (win2_2.rect t)).set ↔ _
  rw [View.set_slice_whole, Rect.mem_set_unit]
  exact Iff.rfl

/-- Every index of the array is in the block of the point its row falls to: row r belongs to point r / 2000. -/
theorem covered (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  let t : Fin cfg2.N := ⟨(i 0).val / 2000, lt_of_lt_of_eq (show (i 0).val / 2000 < 50 by omega) N_2.symm⟩
  have htv : t.val = (i 0).val / 2000 := rfl
  obtain ⟨-, -, -, -, e4, e5⟩ := index_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 7 ≤ (i 1).val ∧ (i 1).val < win2_2.index t (1 : Fin 2) * 7 + 7; omega

/-- After region 2 its output array is the row-wise log-softmax of `A + b`, for the aggregated array `A` it reads and
    the bias `b` whose one-row re-laying it reads. -/
theorem arr_eq (c : Dev nD) (b : FVec Ideal S7 .f32)
    (hb : ∀ k : Fin 7, V c main_v60 (ix2 (0 : Fin 1) k) = b (ix1 k)) :
    (dat2 (F := Ideal) V c).arrAt 2 cfg2.N = Cert.Layers.outputs (V c main_v59) b :=
  (dat2 (F := Ideal) V c).arrAt_eq_of_cover 2 (Cert.Layers.outputs (V c main_v59) b)
    (fun t _ => flushed_eq V c b hb t) covered

end Cert.KernelIdeal.Region2

end
-- ==== Proof.HostChain.lean ====
/-
  The kernel program's host stretches read against the reference's stages, and the result array as the reference's
  result stage of the launch arguments.

  Between its three regions the kernel program runs the same host operations as the reference: from the edge array it
  builds the edge sources and targets with self-loops appended, the symmetric normalisation of every edge, and after each
  of the first two regions one aggregation step (gather at the sources, scale, sum into the targets). Reading the frame's
  boundary contents `W3 … W8` back through those operations gives, at each boundary, the reference's own stage of the
  launch arguments: the sources, targets and normalisation once (they are never written again), each region's output as
  the reference's matrix product or log-softmax of the SAME operands (the three region modules), and each aggregation
  step as the reference's aggregation of an equal array.
-/
import proofs.«101365_j87875030876683_1_alg».proof.Proof.ResultRun
import proofs.«101365_j87875030876683_1_alg».proof.Proof.Region0
import proofs.«101365_j87875030876683_1_alg».proof.Proof.Region1
import proofs.«101365_j87875030876683_1_alg».proof.Proof.Region2
import Idealize.ShloMosaic.Lib.StableHlo.Run
import Idealize.ShloMosaic.Lib.ValueLayout

set_option maxRecDepth 16384

noncomputable section

namespace Cert.KernelIdeal.HostChain

open Cert.KernelIdeal Cert.KernelIdeal.Gen Idealize.ShloMosaic Idealize.ShloMosaic.TcCoe Idealize.ShloMosaic.ValueIdx Idealize.SL.Sem
open Idealize.ShloMosaic.StableHlo
open Cert.ReferenceIdeal.ReadP (val_main_v3 val_main_v6 val_main_v12 val_main_v14 val_main_cst_3 val_main_v15 val_main_v30 val_main_v31 val_main_v44 val_main_v49 val_main_v62 val_main_v66)
open Cert.Layers (aggregate16 aggregate7 hidden outputs)

/-! ## The host stretches, each from ANY entry contents that hold the reference's stages so far -/

section Stretches

variable {F : FTy → Type} [FloatOps F]
variable (V : Valuation τ sig (Elt F)) (x1 : (⟨S2x3200000, .i32⟩ : BufTy).Contents (Elt F))

set_option maxHeartbeats 2000000 in
/-- The first stretch from the edge array: whether a node has an edge into it, … -/
theorem positive_of (h : V (Proc.devRef .tc main_arg1) = x1) :
    StableHlo.after hostOps0 V (Proc.devRef .tc main_v12) = val_main_v12 (F := F) x1 := by
  after_results
  rw [h]
  rfl

set_option maxHeartbeats 2000000 in
/-- … its degree to the power −1/2, … -/
theorem invSqrtDegree_of (h : V (Proc.devRef .tc main_arg1) = x1) :
    StableHlo.after hostOps0 V (Proc.devRef .tc main_v14) = val_main_v14 (F := F) x1 := by
  after_results
  rw [h]
  rfl

/-- … and the zero the selection falls back to. -/
theorem fallback_of : StableHlo.after hostOps0 V (Proc.devRef .tc main_cst_3) = val_main_cst_3 (F := F) := by
  after_results_simp
  rfl

/-- The selection `where (degree > 0, degree ^ −1/2, 0)`. -/
theorem invSqrt_of (h12 : V (Proc.devRef .tc main_v12) = val_main_v12 (F := F) x1)
    (h14 : V (Proc.devRef .tc main_v14) = val_main_v14 (F := F) x1) (hc : V (Proc.devRef .tc main_cst_3) = val_main_cst_3 (F := F)) :
    StableHlo.after hostOps0_1 V (Proc.devRef .tc main_v15) = val_main_v15 (F := F) x1 := by
  after_results_simp
  rw [h12, h14, hc]
  rfl

set_option maxHeartbeats 2000000 in
/-- Every edge's normalisation: the selected values gathered at its source and at its target, multiplied. -/
theorem norm_of (h15 : V (Proc.devRef .tc main_v15) = val_main_v15 (F := F) x1)
    (h3 : V (Proc.devRef .tc main_v3) = val_main_v3 (F := F) x1) (h6 : V (Proc.devRef .tc main_v6) = val_main_v6 (F := F) x1) :
    StableHlo.after hostOps0_2 V (Proc.devRef .tc main_v30) = val_main_v30 (F := F) x1 := by
  after_results_simp
  rw [h15, h3, h6]
  rfl

set_option maxHeartbeats 2000000 in
/-- The first aggregation step is the reference's step on whatever 16-wide array it gathers from. -/
theorem aggregate16_of (X : (⟨S100000x16, .f32⟩ : BufTy).Contents (Elt F)) (hX : V (Proc.devRef .tc main_v31) = X)
    (h3 : V (Proc.devRef .tc main_v3) = val_main_v3 (F := F) x1) (h6 : V (Proc.devRef .tc main_v6) = val_main_v6 (F := F) x1)
    (h30 : V (Proc.devRef .tc main_v30) = val_main_v30 (F := F) x1) :
    StableHlo.after hostOps1 V (Proc.devRef .tc main_v44) = aggregate16 (F := F) X x1 := by
  after_results_simp
  rw [hX, h3, h6, h30]
  rfl

set_option maxHeartbeats 2000000 in
/-- The second aggregation step is the reference's step on whatever 7-wide array it gathers from. -/
theorem aggregate7_of (Y : (⟨S100000x7, .f32⟩ : BufTy).Contents (Elt F)) (hY : V (Proc.devRef .tc main_v46) = Y)
    (h3 : V (Proc.devRef .tc main_v3) = val_main_v3 (F := F) x1) (h6 : V (Proc.devRef .tc main_v6) = val_main_v6 (F := F) x1)
    (h30 : V (Proc.devRef .tc main_v30) = val_main_v30 (F := F) x1) :
    StableHlo.after hostOps2 V (Proc.devRef .tc main_v59) = aggregate7 (F := F) Y x1 := by
  after_results_simp
  rw [hY, h3, h6, h30]
  rfl

end Stretches

/-! ## Up to region 0: sources, targets, normalisation; the arguments untouched -/

section Generic

variable {F : FTy → Type} [FloatOps F]
variable (m : (ℓ : Loc nD τ sig) → Buf (Elt F) ℓ) (ρ : Dev nD → PrngReg) (c : Dev nD)

/-- The edge sources (self-loops appended) at region 0's entry are the reference's. -/
theorem W3_src : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results <;> rfl

/-- The edge targets at region 0's entry are the reference's. -/
theorem W3_dst : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results <;> rfl

/-- The edges' normalisation at region 0's entry is the reference's. -/
theorem W3_norm : W3 m ρ c (Proc.devRef .tc main_v30) = val_main_v30 (F := F) (m ((c : Thread nD τ).loc main_arg1)) := by
  have h15 : W2 m ρ c (Proc.devRef .tc main_v15) = val_main_v15 (F := F) (m ((c : Thread nD τ).loc main_arg1)) :=
    invSqrt_of (W1 m ρ c) _ (positive_of (W0 m ρ c) _ rfl) (invSqrtDegree_of (W0 m ρ c) _ rfl) (fallback_of (W0 m ρ c))
  have h3 : W2 m ρ c (Proc.devRef .tc main_v3) = val_main_v3 (F := F) (m ((c : Thread nD τ).loc main_arg1)) := by
    show StableHlo.after hostOps0_1 (StableHlo.after hostOps0 (W0 m ρ c)) (Proc.devRef .tc main_v3) = _
    after_results <;> rfl
  have h6 : W2 m ρ c (Proc.devRef .tc main_v6) = val_main_v6 (F := F) (m ((c : Thread nD τ).loc main_arg1)) := by
    show StableHlo.after hostOps0_1 (StableHlo.after hostOps0 (W0 m ρ c)) (Proc.devRef .tc main_v6) = _
    after_results <;> rfl
  exact norm_of (W2 m ρ c) _ h15 h3 h6

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl

/-! ## Across region 0 and the first aggregation -/

theorem W4_src : W4 m ρ c (Proc.devRef .tc main_v3) = val_main_v3 (F := F) (m ((c : Thread nD τ).loc main_arg1)) :=
  (W4_of_ne m ρ c main_v3 (by decide)).trans (W3_src m ρ c)
theorem W4_dst : W4 m ρ c (Proc.devRef .tc main_v6) = val_main_v6 (F := F) (m ((c : Thread nD τ).loc main_arg1)) :=
  (W4_of_ne m ρ c main_v6 (by decide)).trans (W3_dst m ρ c)
theorem W4_norm : W4 m ρ c (Proc.devRef .tc main_v30) = val_main_v30 (F := F) (m ((c : Thread nD τ).loc main_arg1)) :=
  (W4_of_ne m ρ c main_v30 (by decide)).trans (W3_norm m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-- The first aggregation step of the kernel program is the reference's step on whatever region 0 left. -/
theorem W5_agg (X : Buf (Elt F) ((c : Thread nD τ).loc main_v31)) (hX : W4 m ρ c (Proc.devRef .tc main_v31) = X) :
    W5 m ρ c (Proc.devRef .tc main_v44) = aggregate16 (F := F) X (m ((c : Thread nD τ).loc main_arg1)) := by
  exact aggregate16_of (W4 m ρ c) _ X hX (W4_src m ρ c) (W4_dst m ρ c) (W4_norm m ρ c)

theorem W5_src : W5 m ρ c (Proc.devRef .tc main_v3) = val_main_v3 (F := F) (m ((c : Thread nD τ).loc main_arg1)) := by
  show StableHlo.after hostOps1 (W4 m ρ c) (Proc.devRef .tc main_v3) = _
  after_results
  exact W4_src m ρ c
theorem W5_dst : W5 m ρ c (Proc.devRef .tc main_v6) = val_main_v6 (F := F) (m ((c : Thread nD τ).loc main_arg1)) := by
  show StableHlo.after hostOps1 (W4 m ρ c) (Proc.devRef .tc main_v6) = _
  after_results
  exact W4_dst m ρ c
theorem W5_norm : W5 m ρ c (Proc.devRef .tc main_v30) = val_main_v30 (F := F) (m ((c : Thread nD τ).loc main_arg1)) := by
  show StableHlo.after hostOps1 (W4 m ρ c) (Proc.devRef .tc main_v30) = _
  after_results
  exact W4_norm m ρ c
theorem W5_arg4 : W5 m ρ c (Proc.devRef .tc main_arg4) = m ((c : Thread nD τ).loc main_arg4) := by
  show StableHlo.after hostOps1 (W4 m ρ c) (Proc.devRef .tc main_arg4) = _
  after_results
  exact W4_arg4 m ρ c
theorem W5_arg5 : W5 m ρ c (Proc.devRef .tc main_arg5) = m ((c : Thread nD τ).loc main_arg5) := by
  show StableHlo.after hostOps1 (W4 m ρ c) (Proc.devRef .tc main_arg5) = _
  after_results
  exact W4_arg5 m ρ c

/-- The one-row re-laying of the first bias that region 1 reads holds the bias. -/
theorem W5_bias (k : Fin 16) :
    W5 m ρ c (Proc.devRef .tc main_v45) (ix2 (0 : Fin 1) k) = m ((c : Thread nD τ).loc main_arg3) (ix1 k) := by
  have h : W5 m ρ c (Proc.devRef .tc main_v45) = shapeCast S1x16 (m ((c : Thread nD τ).loc main_arg3)) shapeCasts_S16_S1x16 := by
    show StableHlo.after hostOps1 (W4 m ρ c) (Proc.devRef .tc main_v45) = _
    after_results
    rw [W4_arg3]
    rfl
  rw [h]
  exact shapeCast_a_1a_apply _ _ 0 k

/-! ## Across region 1 and the second aggregation -/

theorem W6_src : W6 m ρ c (Proc.devRef .tc main_v3) = val_main_v3 (F := F) (m ((c : Thread nD τ).loc main_arg1)) :=
  (W6_of_ne m ρ c main_v3 (by decide)).trans (W5_src m ρ c)
theorem W6_dst : W6 m ρ c (Proc.devRef .tc main_v6) = val_main_v6 (F := F) (m ((c : Thread nD τ).loc main_arg1)) :=
  (W6_of_ne m ρ c main_v6 (by decide)).trans (W5_dst m ρ c)
theorem W6_norm : W6 m ρ c (Proc.devRef .tc main_v30) = val_main_v30 (F := F) (m ((c : Thread nD τ).loc main_arg1)) :=
  (W6_of_ne m ρ c main_v30 (by decide)).trans (W5_norm m ρ c)
theorem W6_arg5 : W6 m ρ c (Proc.devRef .tc main_arg5) = m ((c : Thread nD τ).loc main_arg5) :=
  (W6_of_ne m ρ c main_arg5 (by decide)).trans (W5_arg5 m ρ c)

/-- The second aggregation step of the kernel program is the reference's step on whatever region 1 left. -/
theorem W7_agg (Y : Buf (Elt F) ((c : Thread nD τ).loc main_v46)) (hY : W6 m ρ c (Proc.devRef .tc main_v46) = Y) :
    W7 m ρ c (Proc.devRef .tc main_v59) = aggregate7 (F := F) Y (m ((c : Thread nD τ).loc main_arg1)) := by
  exact aggregate7_of (W6 m ρ c) _ Y hY (W6_src m ρ c) (W6_dst m ρ c) (W6_norm m ρ c)

/-- The one-row re-laying of the second bias that region 2 reads holds the bias. -/
theorem W7_bias (k : Fin 7) :
    W7 m ρ c (Proc.devRef .tc main_v60) (ix2 (0 : Fin 1) k) = m ((c : Thread nD τ).loc main_arg5) (ix1 k) := by
  have h : W7 m ρ c (Proc.devRef .tc main_v60) = shapeCast S1x7 (m ((c : Thread nD τ).loc main_arg5)) shapeCasts_S7_S1x7 := by
    show StableHlo.after hostOps2 (W6 m ρ c) (Proc.devRef .tc main_v60) = _
    after_results
    rw [W6_arg5]
    rfl
  rw [h]
  exact shapeCast_a_1a_apply _ _ 0 k

end Generic

/-! ## The regions' outputs, and the result -/

section AtIdeal

variable (m : (ℓ : Loc nD τ sig) → Buf (Elt Ideal) ℓ) (ρ : Dev nD → PrngReg) (c : Dev nD)

/-- Region 0 leaves the reference's first matrix product of the launch arguments. -/
theorem features :
    W4 m ρ c (Proc.devRef .tc main_v31)
      = val_main_v31 (F := Ideal) (m ((c : Thread nD τ).loc main_arg0)) (m ((c : Thread nD τ).loc main_arg2)) := by
  have h := Region0.arr_eq (V3 m ρ) c
  have e0 : V3 m ρ c main_arg0 = m ((c : Thread nD τ).loc main_arg0) := W3_arg0 m ρ c
  have e2 : V3 m ρ c main_arg2 = m ((c : Thread nD τ).loc main_arg2) := W3_arg2 m ρ c
  rw [e0, e2] at h
  exact (W4_arr m ρ c 2).trans h

/-- The first aggregated array is the reference's. -/
theorem aggregated1 :
    W5 m ρ c (Proc.devRef .tc main_v44)
      = val_main_v44 (F := Ideal) (m ((c : Thread nD τ).loc main_arg0)) (m ((c : Thread nD τ).loc main_arg1)) (m ((c : Thread nD τ).loc main_arg2)) :=
  (W5_agg m ρ c _ (features m ρ c)).trans (Cert.Layers.val_main_v44_eq _ _ _).symm

/-- Region 1 leaves the reference's second matrix product of the launch arguments. -/
theorem hiddenFeatures :
    W6 m ρ c (Proc.devRef .tc main_v46)
      = val_main_v49 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  have h := Region1.arr_eq (V5 m ρ) c (m ((c : Thread nD τ).loc main_arg3)) (W5_bias m ρ c)
  have e0 : V5 m ρ c main_v44 = _ := aggregated1 m ρ c
  have e4 : V5 m ρ c main_arg4 = m ((c : Thread nD τ).loc main_arg4) := W5_arg4 m ρ c
  rw [e0, e4] at h
  exact (W6_arr m ρ c 3).trans (h.trans (Cert.Layers.val_main_v49_eq _ _ _ _ _).symm)

/-- The second aggregated array is the reference's. -/
theorem aggregated2 :
    W7 m ρ c (Proc.devRef .tc main_v59)
      = val_main_v62 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) :=
  (W7_agg m ρ c _ (hiddenFeatures m ρ c)).trans (Cert.Layers.val_main_v62_eq _ _ _ _ _).symm

/-- THE RESULT: after the run the kernel program's result array is the reference's result stage of the launch arguments. -/
theorem result :
    W8 m ρ c (Proc.devRef .tc main_v61)
      = val_main_v66 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h := Region2.arr_eq (V7 m ρ) c (m ((c : Thread nD τ).loc main_arg5)) (W7_bias m ρ c)
  have e0 : V7 m ρ c main_v59 = _ := aggregated2 m ρ c
  rw [e0] at h
  exact (Cert.KernelIdeal.ResultRun.W8_result m ρ c).trans (h.trans (Cert.Layers.val_main_v66_eq' _ _ _ _ _ _).symm)

end AtIdeal

end Cert.KernelIdeal.HostChain

end
-- ==== Proof.lean ====
/-
  The certificate of a two-layer graph convolution: three row-tiled kernels (the feature transform `x · W₁`, the hidden
  transform `relu (A + b₁) · W₂`, the row-wise log-softmax of `A + b₂`) with host gathers and scatter-sums between them,
  against the plain reference that computes the same stages as whole-array operations.

  At the exact instance the two programs compute one function of the arguments. The host operations around the regions
  are the reference's own, operation for operation (edge sources and targets with self-loops, the symmetric degree
  normalisation, one gather–scale–scatter-sum per layer), so it is enough that each region leaves in its output array the
  reference's dense stage of the arrays it reads: a matrix product tiled by rows is the whole product (an entry depends on
  its own row only, and a change of float format is the identity); the bias and relu commute with the row tiling; the
  log-softmax of a row reads that row only, its lane maximum and lane sum being the same finite folds as the reference's
  reductions (`max ⊥ M = M` absorbs the reference's extra comparison with −∞). No finiteness of the inputs is used: every
  step is an equality of extended-real terms.

  Modules: `Layers` (the reference's dense stages over arbitrary operands, read at an index), `Region0`–`Region2` (each
  region's output array as that stage of the region's inputs), `ResultRun` (the kernel program's run with its result
  array kept), `HostChain` (the boundary contents read back through the host operations to the reference's stages of
  the launch arguments), `RefRun` / `RefRead` (the reference's run and its stages).
-/
import proofs.«101365_j87875030876683_1_alg».proof.Defs
import proofs.«101365_j87875030876683_1_alg».proof.Proof.Gen.Kernel
import proofs.«101365_j87875030876683_1_alg».proof.Proof.Gen.Kernel.Skeleton
import proofs.«101365_j87875030876683_1_alg».proof.Proof.Gen.Kernel.Launch
import proofs.«101365_j87875030876683_1_alg».proof.Proof.Gen.Kernel.Points
import proofs.«101365_j87875030876683_1_alg».proof.Proof.Gen.Kernel.Frame
import proofs.«101365_j87875030876683_1_alg».proof.Proof.Gen.KernelIdeal
import proofs.«101365_j87875030876683_1_alg».proof.Proof.Gen.KernelIdeal.Skeleton
import proofs.«101365_j87875030876683_1_alg».proof.Proof.Gen.KernelIdeal.Launch
import proofs.«101365_j87875030876683_1_alg».proof.Proof.Gen.KernelIdeal.Points
import proofs.«101365_j87875030876683_1_alg».proof.Proof.Gen.KernelIdeal.Frame
import proofs.«101365_j87875030876683_1_alg».proof.Proof.Gen.ReferenceIdeal
import proofs.«101365_j87875030876683_1_alg».proof.Proof.Gen.Pre_finite_inputs
import proofs.«101365_j87875030876683_1_alg».proof.Proof.HostChain
import proofs.«101365_j87875030876683_1_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the exact instance. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the reference's result stage of those arguments in
    their result arrays. -/
theorem algebraic : Cert.algebraic_KernelIdeal_ReferenceIdeal := by
  intro m ρ m' ρ' _ hagree
  refine ⟨fun c => Cert.ReferenceIdeal.ReadP.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostChain.result m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.ValueP.run (F := Ideal) m' ρ')
    have e := Cert.ReferenceIdeal.ValueP.val_main_v66_eq (F := Ideal) m' c
    rw [(hagree c).1, (hagree c).2.1, (hagree c).2.2.1, (hagree c).2.2.2.1, (hagree c).2.2.2.2.1, (hagree c).2.2.2.2.2] at e
    exact e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
